-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x500 : S_.BroadcastsInDim S128x500 (![] : Fin 0 → Fin S128x500.rank)
  reducesTo_S128x500_S_d0_1 : S128x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x1 : S_.BroadcastsInDim S500x1 (![] : Fin 0 → Fin S500x1.rank)
  reducesTo_S500x1_S_d0_1 : S500x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S500x500 .f32) (main_arg9 : FVec F S500 .f32) (main_arg10 : FVec F S500x1 .f32) (main_arg11 : FVec F S1 .f32) (main_v33 : IVec S_ 1) : IVec S_ 1 :=
  let main_v34 : FVec F S500x500 .f32 := Host.absf main_arg8
  let main_cst_12 : FVec F S_ .f32 := constant S_ .f32 0x7F800000#32
  let main_v35 : FVec F S500x500 .f32 := broadcastInDim S500x500 ![] bcast_S_S500x500 main_cst_12
  let main_v36 : IVec S500x500 1 := cmpf .olt main_v34 main_v35
  let main_c_13 : IVec S_ 1 := constantI S_ 1 1#1
  let main_v37 : IVec S_ 1 := (fun x v => Host.reduce IntOp.andi x v reducesTo_S500x500_S_d0_1 h_S_) main_v36 main_c_13
  let main_v38 : IVec S_ 1 := andi main_v33 main_v37
  let main_v39 : FVec F S500 .f32 := Host.absf main_arg9
  let main_cst_14 : FVec F S_ .f32 := constant S_ .f32 0x7F800000#32
  let main_v40 : FVec F S500 .f32 := broadcastInDim S500 ![] bcast_S_S500 main_cst_14
  let main_v41 : IVec S500 1 := cmpf .olt main_v39 main_v40
  let main_c_15 : IVec S_ 1 := constantI S_ 1 1#1
  let main_v42 : IVec S_ 1 := (fun x v => Host.reduce IntOp.andi x v reducesTo_S500_S_d0 h_S_) main_v41 main_c_15
  let main_v43 : IVec S_ 1 := andi main_v38 main_v42
  let main_v44 : FVec F S500x1 .f32 := Host.absf main_arg10
  let main_cst_16 : FVec F S_ .f32 := constant S_ .f32 0x7F800000#32
  let main_v45 : FVec F S500x1 .f32 := broadcastInDim S500x1 ![] bcast_S_S500x1 main_cst_16
  let main_v46 : IVec S500x1 1 := cmpf .olt main_v44 main_v45
  let main_c_17 : IVec S_ 1 := constantI S_ 1 1#1
  let main_v47 : IVec S_ 1 := (fun x v => Host.reduce IntOp.andi x v reducesTo_S500x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S500 .f32) (main_arg6 : FVec F S500x500 .f32) (main_arg7 : FVec F S500 .f32) (main_arg8 : FVec F S500x500 .f32) (main_arg9 : FVec F S500 .f32) (main_arg10 : FVec F S500x1 .f32) (main_arg11 : FVec F S1 .f32) (main_v13 : IVec S_ 1) (main_v16 : IVec S128x500 1) : IVec S_ 1 :=
  let main_c_5 : IVec S_ 1 := constantI S_ 1 1#1
  let main_v17 : IVec S_ 1 := (fun x v => Host.reduce IntOp.andi x v reducesTo_S128x500_S_d0_1 h_S_) main_v16 main_c_5
  let main_v18 : IVec S_ 1 := andi main_v13 main_v17
  let main_v19 : FVec F S500 .f32 := Host.absf main_arg5
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500x500 .f32 := Host.absf main_arg6
  let main_cst_8 : FVec F S_ .f32 := constant S_ .f32 0x7F800000#32
  let main_v25 : FVec F S500x500 .f32 := broadcastInDim S500x500 ![] bcast_S_S500x500 main_cst_8
  let main_v26 : IVec S500x500 1 := cmpf .olt main_v24 main_v25
  let main_c_9 : IVec S_ 1 := constantI S_ 1 1#1
  let main_v27 : IVec S_ 1 := (fun x v => Host.reduce IntOp.andi x v reducesTo_S500x500_S_d0_1 h_S_) main_v26 main_c_9
  let main_v28 : IVec S_ 1 := andi main_v23 main_v27
  let main_v29 : FVec F S500 .f32 := Host.absf main_arg7
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x500 .f32) (main_arg5 : FVec F S500 .f32) (main_arg6 : FVec F S500x500 .f32) (main_arg7 : FVec F S500 .f32) (main_arg8 : FVec F S500x500 .f32) (main_arg9 : FVec F S500 .f32) (main_arg10 : FVec F S500x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x500 .f32 := Host.absf main_arg4
  let main_cst_4 : FVec F S_ .f32 := constant S_ .f32 0x7F800000#32
  let main_v15 : FVec F S128x500 .f32 := broadcastInDim S128x500 ![] bcast_S_S128x500 main_cst_4
  let main_v16 : IVec S128x500 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1000x128 : Shape := ⟨2, ![1000, 128]⟩
abbrev S1000x1 : Shape := ⟨2, ![1000, 1]⟩
abbrev S1000x500 : Shape := ⟨2, ![1000, 500]⟩
abbrev S1x500 : Shape := ⟨2, ![1, 500]⟩
abbrev S1x1 : Shape := ⟨2, ![1, 1]⟩

abbrev nBuf : Space → Nat
  | .hbm => 81
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x500, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S500x500, .f32⟩
  | .hbm, ⟨9, _⟩ => ⟨S500, .f32⟩
  | .hbm, ⟨10, _⟩ => ⟨S500x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S50000x128, .f32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S128x500, .bf16⟩
  | .hbm, ⟨77, _⟩ => ⟨S500x500, .bf16⟩
  | .hbm, ⟨78, _⟩ => ⟨S500x500, .bf16⟩
  | .hbm, ⟨79, _⟩ => ⟨S500x1, .bf16⟩
  | .hbm, ⟨80, _⟩ => ⟨S50000x1, .f32⟩
  | .local _ .vmem, ⟨0, _⟩ => ⟨S1000x128, .f32⟩
  | .local _ .vmem, ⟨1, _⟩ => ⟨S1000x128, .f32⟩
  | .local _ .vmem, ⟨2, _⟩ => ⟨S128x500, .bf16⟩
  | .local _ .vmem, ⟨3, _⟩ => ⟨S500, .f32⟩
  | .local _ .vmem, ⟨4, _⟩ => ⟨S500x500, .bf16⟩
  | .local _ .vmem, ⟨5, _⟩ => ⟨S500, .f32⟩
  | .local _ .vmem, ⟨6, _⟩ => ⟨S500x500, .bf16⟩
  | .local _ .vmem, ⟨7, _⟩ => ⟨S500, .f32⟩
  | .local _ .vmem, ⟨8, _⟩ => ⟨S500x1, .bf16⟩
  | .local _ .vmem, ⟨9, _⟩ => ⟨S1, .f32⟩
  | .local _ .vmem, ⟨10, _⟩ => ⟨S1000x1, .f32⟩
  | .local _ .vmem, ⟨11, _⟩ => ⟨S1000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x500 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S500x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x500_S128x500_0_0 : ∀ a, (![0, 0] : Fin 2 → Nat) a + S128x500.size a ≤ S128x500.size a
  h_S128x500 : 0 < S128x500.numel
  shapeCasts_S128x500_S128x500 : S128x500.ShapeCasts S128x500
  inb_S500_S500_0 : ∀ a, (![0] : Fin 1 → Nat) a + S500.size a ≤ S500.size a
  h_S500 : 0 < S500.numel
  shapeCasts_S500_S1x500 : S500.ShapeCasts S1x500
  broadcasts_S1x500_S1000x500 : S1x500.Broadcasts S1000x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1000x128_S128x500_S1000x500_1_0_0_1_n_n_wf : DotDims.WF S1000x128 S128x500 S1000x500 [1] [0] [0] [1] [] []
  dot_S1000x500_S500x500_S1000x500_1_0_0_1_n_n_wf : DotDims.WF S1000x500 S500x500 S1000x500 [1] [0] [0] [1] [] []
  dot_S1000x500_S500x1_S1000x1_1_0_0_1_n_n_wf : DotDims.WF S1000x500 S500x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x500.size a ≤ S128x500.size a
  hwx0_1 : ∀ i : grid0.Coords, EltTy.bits .bf16 = 32 ∨ (Rect.block (s := S128x500) S128x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500.size a ≤ S500.size a
  hwx0_2 : ∀ i : grid0.Coords, EltTy.bits .f32 = 32 ∨ (Rect.block (s := S500) S500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x500.size a ≤ S500x500.size a
  hwx0_3 : ∀ i : grid0.Coords, EltTy.bits .bf16 = 32 ∨ (Rect.block (s := S500x500) S500x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500.size a ≤ S500.size a
  hwx0_4 : ∀ i : grid0.Coords, EltTy.bits .f32 = 32 ∨ (Rect.block (s := S500) S500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x500.size a ≤ S500x500.size a
  hwx0_5 : ∀ i : grid0.Coords, EltTy.bits .bf16 = 32 ∨ (Rect.block (s := S500x500) S500x500.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500.size a ≤ S500.size a
  hwx0_6 : ∀ i : grid0.Coords, EltTy.bits .f32 = 32 ∨ (Rect.block (s := S500) S500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500x1.size a ≤ S500x1.size a
  hwx0_7 : ∀ i : grid0.Coords, EltTy.bits .bf16 = 32 ∨ (Rect.block (s := S500x1) S500x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1.size a ≤ S50000x1.size a
  hwx0_9 : ∀ i : grid0.Coords, EltTy.bits .f32 = 32 ∨ (Rect.block (s := S50000x1) S1000x1.size (cc0_transform_9 i) (hinb0_9 i)).WholeWords (EltTy.packing .f32)

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1000x128_S128x500_S1000x500_1_0_0_1_n_n : DotDims S1000x128 S128x500 S1000x500 where
  lhsContracting := [1]
  rhsContracting := [0]
  lhsNonContracting := [0]
  rhsNonContracting := [1]
  lhsBatch := []
  rhsBatch := []
  wf := dot_S1000x128_S128x500_S1000x500_1_0_0_1_n_n_wf
def dot_S1000x500_S500x500_S1000x500_1_0_0_1_n_n : DotDims S1000x500 S500x500 S1000x500 where
  lhsContracting := [1]
  rhsContracting := [0]
  lhsNonContracting := [0]
  rhsNonContracting := [1]
  lhsBatch := []
  rhsBatch := []
  wf := dot_S1000x500_S500x500_S1000x500_1_0_0_1_n_n_wf
def dot_S1000x500_S500x1_S1000x1_1_0_0_1_n_n : DotDims S1000x500 S500x1 S1000x1 where
  lhsContracting := [1]
  rhsContracting := [0]
  lhsNonContracting := [0]
  rhsNonContracting := [1]
  lhsBatch := []
  rhsBatch := []
  wf := dot_S1000x500_S500x1_S1000x1_1_0_0_1_n_n_wf

abbrev win0_0 : Pipeline.Window sig grid0 :=
  Pipeline.Window.ofSpec (Memref.whole main_v49) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S500x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S500x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S500x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x500 : Shape := ⟨2, ![50000, 500]⟩
abbrev S1x500 : Shape := ⟨2, ![1, 500]⟩
abbrev S50000x1 : Shape := ⟨2, ![50000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x500, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S500x500, .f32⟩
  | .hbm, ⟨9, _⟩ => ⟨S500, .f32⟩
  | .hbm, ⟨10, _⟩ => ⟨S500x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S50000x128, .f32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x500, .f32⟩
  | .hbm, ⟨80, _⟩ => ⟨S1x500, .f32⟩
  | .hbm, ⟨81, _⟩ => ⟨S50000x500, .f32⟩
  | .hbm, ⟨82, _⟩ => ⟨S50000x500, .f32⟩
  | .hbm, ⟨83, _⟩ => ⟨S_, .f32⟩
  | .hbm, ⟨84, _⟩ => ⟨S50000x500, .f32⟩
  | .hbm, ⟨85, _⟩ => ⟨S50000x500, .f32⟩
  | .hbm, ⟨86, _⟩ => ⟨S50000x500, .f32⟩
  | .hbm, ⟨87, _⟩ => ⟨S1x500, .f32⟩
  | .hbm, ⟨88, _⟩ => ⟨S50000x500, .f32⟩
  | .hbm, ⟨89, _⟩ => ⟨S50000x500, .f32⟩
  | .hbm, ⟨90, _⟩ => ⟨S_, .f32⟩
  | .hbm, ⟨91, _⟩ => ⟨S50000x500, .f32⟩
  | .hbm, ⟨92, _⟩ => ⟨S50000x500, .f32⟩
  | .hbm, ⟨93, _⟩ => ⟨S50000x500, .f32⟩
  | .hbm, ⟨94, _⟩ => ⟨S1x500, .f32⟩
  | .hbm, ⟨95, _⟩ => ⟨S50000x500, .f32⟩
  | .hbm, ⟨96, _⟩ => ⟨S50000x500, .f32⟩
  | .hbm, ⟨97, _⟩ => ⟨S_, .f32⟩
  | .hbm, ⟨98, _⟩ => ⟨S50000x500, .f32⟩
  | .hbm, ⟨99, _⟩ => ⟨S50000x500, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_cst : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call4_cst : Ref sig .tc := ⟨.hbm, 97, rfl⟩
abbrev main_call4_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  bcast_S_S50000x500 : S_.BroadcastsInDim S50000x500 (![] : Fin 0 → Fin S50000x500.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x500_S50000x500_1_0_0_1_n_n_wf : DotDims.WF S50000x128 S128x500 S50000x500 [1] [0] [0] [1] [] []
  dot_S50000x500_S500x500_S50000x500_1_0_0_1_n_n_wf : DotDims.WF S50000x500 S500x500 S50000x500 [1] [0] [0] [1] [] []
  dot_S50000x500_S500x1_S50000x1_1_0_0_1_n_n_wf : DotDims.WF S50000x500 S500x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x500_S50000x500_1_0_0_1_n_n : DotDims S50000x128 S128x500 S50000x500 where
  lhsContracting := [1]
  rhsContracting := [0]
  lhsNonContracting := [0]
  rhsNonContracting := [1]
  lhsBatch := []
  rhsBatch := []
  wf := dot_S50000x128_S128x500_S50000x500_1_0_0_1_n_n_wf
def dot_S50000x500_S500x500_S50000x500_1_0_0_1_n_n : DotDims S50000x500 S500x500 S50000x500 where
  lhsContracting := [1]
  rhsContracting := [0]
  lhsNonContracting := [0]
  rhsNonContracting := [1]
  lhsBatch := []
  rhsBatch := []
  wf := dot_S50000x500_S500x500_S50000x500_1_0_0_1_n_n_wf
def dot_S50000x500_S500x1_S50000x1_1_0_0_1_n_n : DotDims S50000x500 S500x1 S50000x1 where
  lhsContracting := [1]
  rhsContracting := [0]
  lhsNonContracting := [0]
  rhsNonContracting := [1]
  lhsBatch := []
  rhsBatch := []
  wf := dot_S50000x500_S500x1_S50000x1_1_0_0_1_n_n_wf

class Facts : Prop extends Facts₀ where

variable [Facts]
-- ==== Proof.KernelEntry.lean ====
/-
  What the host operations before the region leave in the arrays the region's windows read.

  The kernel's program computes the graph convolution with host operations before it launches its one region; they
  are, operation for operation, the reference's own first fifty. So the array the first window reads is the
  reference's convolution stage of the same four arguments. The four weight arrays the region reads are the
  arguments converted to the narrow float format. Everything here is stated for any float values: the two long
  terms are compared as written and nothing in them is computed.
-/
import proofs.«159771_j85298050499264_1_alg».proof.Proof.Gen.KernelIdeal.Frame
import proofs.«159771_j85298050499264_1_alg».proof.Proof.RefRead
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-- The first window's array is the reference's convolution stage of the kernel's first four arguments. -/
theorem V_conv (c : Dev nD) :
    V m c main_v49 = Cert.ReferenceIdeal.ReadP.val_main_v49 (F := F) (m ((c : Thread nD τ).loc main_arg0)) (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp <;> rfl

/-- The first weight matrix as the region finds it: the argument, converted. -/
theorem V_w1 (c : Dev nD) : V m c main_v50 = truncf .bf16 (m ((c : Thread nD τ).loc main_arg4)) bitsLt_bf16_f32 := by
  dsimp only [V]
  simp only [hostOps0, hostOps0_1, hostOps0_2, List.flatten_cons, List.flatten_nil, List.append_nil, List.cons_append, List.nil_append]
  after_results_simp <;> rfl
/-- The second weight matrix likewise. -/
theorem V_w2 (c : Dev nD) : V m c main_v51 = truncf .bf16 (m ((c : Thread nD τ).loc main_arg6)) bitsLt_bf16_f32 := by
  dsimp only [V]
  simp only [hostOps0, hostOps0_1, hostOps0_2, List.flatten_cons, List.flatten_nil, List.append_nil, List.cons_append, List.nil_append]
  after_results_simp <;> rfl
/-- The third weight matrix likewise. -/
theorem V_w3 (c : Dev nD) : V m c main_v52 = truncf .bf16 (m ((c : Thread nD τ).loc main_arg8)) bitsLt_bf16_f32 := by
  dsimp only [V]
  simp only [hostOps0, hostOps0_1, hostOps0_2, List.flatten_cons, List.flatten_nil, List.append_nil, List.cons_append, List.nil_append]
  after_results_simp <;> rfl
/-- The read-out column likewise. -/
theorem V_wo (c : Dev nD) : V m c main_v53 = truncf .bf16 (m ((c : Thread nD τ).loc main_arg10)) bitsLt_bf16_f32 := by
  dsimp only [V]
  simp only [hostOps0, hostOps0_1, hostOps0_2, List.flatten_cons, List.flatten_nil, List.append_nil, List.cons_append, List.nil_append]
  after_results_simp <;> rfl

end Cert.KernelIdeal.Entry

end
-- ==== Proof.MlpSpec.lean ====
/-
  The mathematics both programs compute after the graph convolution, stated once over plain functions of
  finite indices on the extended reals: a perceptron with three hidden layers of 500 rectified units and one
  linear read-out unit, applied to ONE node's rectified feature row of 128 entries.

  A dense layer's unit is an inner product with the unit's weight column plus the unit's bias (`affine`); the
  rectifier is `max · 0` (`relu`). Nothing here needs finiteness: no sum is reordered and no factor is moved
  across a sum, so the definitions are read on all of `EReal`.
-/
import Idealize.ShloMosaic.PureOps.Ideal

noncomputable section

namespace Cert.Mlp

/-- One unit of a dense layer before its activation: `∑ₖ hₖ · wₖ + b`. -/
def affine {K : ℕ} (h w : Fin K → EReal) (b : EReal) : EReal := (∑ k : Fin K, h k * w k) + b

/-- The rectifier on the extended reals. -/
def relu (x : EReal) : EReal := max x 0

/-- First hidden layer, unit `n`: the node's row is rectified (the activation that follows the convolution),
    sent through the 128 × 500 layer, and rectified again. -/
def hidden1 (x : Fin 128 → EReal) (W1 : Fin 128 → Fin 500 → EReal) (b1 : Fin 500 → EReal) (n : Fin 500) : EReal :=
  relu (affine (fun k => relu (x k)) (fun k => W1 k n) (b1 n))

/-- A later hidden layer, unit `n`: the previous layer's 500 activations through a 500 × 500 layer, rectified. -/
def hidden (h : Fin 500 → EReal) (W : Fin 500 → Fin 500 → EReal) (b : Fin 500 → EReal) (n : Fin 500) : EReal :=
  relu (affine h (fun k => W k n) (b n))

/-- The network's one output for a node with feature row `x`: three hidden layers, then the linear read-out
    through the 500 × 1 column `Wo` with bias `bo`. -/
def readout (x : Fin 128 → EReal) (W1 : Fin 128 → Fin 500 → EReal) (b1 : Fin 500 → EReal)
    (W2 : Fin 500 → Fin 500 → EReal) (b2 : Fin 500 → EReal) (W3 : Fin 500 → Fin 500 → EReal) (b3 : Fin 500 → EReal)
    (Wo : Fin 500 → EReal) (bo : EReal) : EReal :=
  affine (hidden (hidden (hidden1 x W1 b1) W2 b2) W3 b3) Wo bo

end Cert.Mlp

end
-- ==== Proof.KernelRow.lean ====
/-
  The kernel's body at one row of its block, read on the extended reals.

  The body loads a 1000 × 128 block of node features, the three weight matrices and the read-out column (all held in
  the narrow float format, which at the ideal values is the same number), and the biases; it rectifies the block,
  and three times multiplies by a weight matrix into a zero accumulator, adds the bias row to every row and
  rectifies; a last product with the 500 × 1 column gives one number per row. Every step acts on each row by itself:
  a product's entry `(p, n)` is the inner product of row `p` with column `n`, a bias row is broadcast down the rows,
  the rectifier is pointwise. So row `p` of the result is the perceptron of `Cert.Mlp` applied to row `p` of the block.
-/
import proofs.«159771_j85298050499264_1_alg».proof.Proof.Gen.KernelIdeal.Skeleton
import proofs.«159771_j85298050499264_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.TcCoe Idealize.ShloMosaic.ValueIdx

/-! ## The body's three kinds of matrix product, read at an index -/

/-! ### The block times the first weight matrix: [1000, 128] · [128, 500] -/

theorem lhsA_0 (i : S1000x500.Idx) (q : dot_S1000x128_S128x500_S1000x500_1_0_0_1_n_n.contr.Idx) :
    (dot_S1000x128_S128x500_S1000x500_1_0_0_1_n_n.lhsIdx i q 0).val = (i 0).val := by
  unfold DotDims.lhsIdx
  rw [dif_neg (show ¬(0 : Fin S1000x128.rank) ∈ dot_S1000x128_S128x500_S1000x500_1_0_0_1_n_n.lhsBatch by decide), dif_pos (show (0 : Fin S1000x128.rank) ∈ dot_S1000x128_S128x500_S1000x500_1_0_0_1_n_n.lhsNonContracting by decide)]
  rfl
theorem lhsA_1 (i : S1000x500.Idx) (q : dot_S1000x128_S128x500_S1000x500_1_0_0_1_n_n.contr.Idx) :
    (dot_S1000x128_S128x500_S1000x500_1_0_0_1_n_n.lhsIdx i q 1).val = (q ⟨0, by decide⟩).val :=
  dot_S1000x128_S128x500_S1000x500_1_0_0_1_n_n.lhsIdx_val_of_single rfl i q
theorem rhsA_0 (i : S1000x500.Idx) (q : dot_S1000x128_S128x500_S1000x500_1_0_0_1_n_n.contr.Idx) :
    (dot_S1000x128_S128x500_S1000x500_1_0_0_1_n_n.rhsIdx i q 0).val = (q ⟨0, by decide⟩).val :=
  dot_S1000x128_S128x500_S1000x500_1_0_0_1_n_n.rhsIdx_val_of_single rfl i q
theorem rhsA_1 (i : S1000x500.Idx) (q : dot_S1000x128_S128x500_S1000x500_1_0_0_1_n_n.contr.Idx) :
    (dot_S1000x128_S128x500_S1000x500_1_0_0_1_n_n.rhsIdx i q 1).val = (i 1).val := by
  unfold DotDims.rhsIdx
  rw [dif_neg (show ¬(1 : Fin S128x500.rank) ∈ dot_S1000x128_S128x500_S1000x500_1_0_0_1_n_n.rhsBatch by decide), dif_pos (show (1 : Fin S128x500.rank) ∈ dot_S1000x128_S128x500_S1000x500_1_0_0_1_n_n.rhsNonContracting by decide)]
  rfl

/-- Entry `(p, n)` of the product into a zero accumulator is the inner product of row `p` of the left factor with
    column `n` of the right one: the contraction index is one coordinate running over `Fin 128`. -/
theorem mmA_apply {φ₁ φ₂ : FTy} (l : FVec Ideal S1000x128 φ₁) (r : FVec Ideal S128x500 φ₂) (p : Fin 1000) (n : Fin 500) :
    matmul dot_S1000x128_S128x500_S1000x500_1_0_0_1_n_n none l r (constant S1000x500 .f32 0x00000000#32) (ix2 p n)
      = ∑ k : Fin 128, l (ix2 p k) * r (ix2 k n) := by
  simp only [matmul]
  rw [Ideal.matmul_constant_zero_apply, ← Equiv.sum_comp (contrEquiv1 dot_S1000x128_S128x500_S1000x500_1_0_0_1_n_n 128 rfl rfl).symm]
  refine Finset.sum_congr rfl fun k _ => ?_
  have hk := contrEquiv1_symm_val dot_S1000x128_S128x500_S1000x500_1_0_0_1_n_n 128 rfl rfl k
  have el : dot_S1000x128_S128x500_S1000x500_1_0_0_1_n_n.lhsIdx (ix2 p n) ((contrEquiv1 dot_S1000x128_S128x500_S1000x500_1_0_0_1_n_n 128 rfl rfl).symm k) = ix2 p k := funext fun a => Fin.ext (by
    match a with
    | ⟨0, _⟩ => exact lhsA_0 _ _
    | ⟨1, _⟩ => exact (lhsA_1 _ _).trans hk)
  have er : dot_S1000x128_S128x500_S1000x500_1_0_0_1_n_n.rhsIdx (ix2 p n) ((contrEquiv1 dot_S1000x128_S128x500_S1000x500_1_0_0_1_n_n 128 rfl rfl).symm k) = ix2 k n := funext fun a => Fin.ext (by
    match a with
    | ⟨0, _⟩ => exact (rhsA_0 _ _).trans hk
    | ⟨1, _⟩ => exact rhsA_1 _ _)
  rw [el, er]

/-! ### A hidden block times a square weight matrix: [1000, 500] · [500, 500] -/

theorem lhsB_0 (i : S1000x500.Idx) (q : dot_S1000x500_S500x500_S1000x500_1_0_0_1_n_n.contr.Idx) :
    (dot_S1000x500_S500x500_S1000x500_1_0_0_1_n_n.lhsIdx i q 0).val = (i 0).val := by
  unfold DotDims.lhsIdx
  rw [dif_neg (show ¬(0 : Fin S1000x500.rank) ∈ dot_S1000x500_S500x500_S1000x500_1_0_0_1_n_n.lhsBatch by decide), dif_pos (show (0 : Fin S1000x500.rank) ∈ dot_S1000x500_S500x500_S1000x500_1_0_0_1_n_n.lhsNonContracting by decide)]
  rfl
theorem lhsB_1 (i : S1000x500.Idx) (q : dot_S1000x500_S500x500_S1000x500_1_0_0_1_n_n.contr.Idx) :
    (dot_S1000x500_S500x500_S1000x500_1_0_0_1_n_n.lhsIdx i q 1).val = (q ⟨0, by decide⟩).val :=
  dot_S1000x500_S500x500_S1000x500_1_0_0_1_n_n.lhsIdx_val_of_single rfl i q
theorem rhsB_0 (i : S1000x500.Idx) (q : dot_S1000x500_S500x500_S1000x500_1_0_0_1_n_n.contr.Idx) :
    (dot_S1000x500_S500x500_S1000x500_1_0_0_1_n_n.rhsIdx i q 0).val = (q ⟨0, by decide⟩).val :=
  dot_S1000x500_S500x500_S1000x500_1_0_0_1_n_n.rhsIdx_val_of_single rfl i q
theorem rhsB_1 (i : S1000x500.Idx) (q : dot_S1000x500_S500x500_S1000x500_1_0_0_1_n_n.contr.Idx) :
    (dot_S1000x500_S500x500_S1000x500_1_0_0_1_n_n.rhsIdx i q 1).val = (i 1).val := by
  unfold DotDims.rhsIdx
  rw [dif_neg (show ¬(1 : Fin S500x500.rank) ∈ dot_S1000x500_S500x500_S1000x500_1_0_0_1_n_n.rhsBatch by decide), dif_pos (show (1 : Fin S500x500.rank) ∈ dot_S1000x500_S500x500_S1000x500_1_0_0_1_n_n.rhsNonContracting by decide)]
  rfl

/-- Entry `(p, n)` of the product into a zero accumulator is the inner product of row `p` of the left factor with
    column `n` of the right one: the contraction index is one coordinate running over `Fin 500`. -/
theorem mmB_apply {φ₁ φ₂ : FTy} (l : FVec Ideal S1000x500 φ₁) (r : FVec Ideal S500x500 φ₂) (p : Fin 1000) (n : Fin 500) :
    matmul dot_S1000x500_S500x500_S1000x500_1_0_0_1_n_n none l r (constant S1000x500 .f32 0x00000000#32) (ix2 p n)
      = ∑ k : Fin 500, l (ix2 p k) * r (ix2 k n) := by
  simp only [matmul]
  rw [Ideal.matmul_constant_zero_apply, ← Equiv.sum_comp (contrEquiv1 dot_S1000x500_S500x500_S1000x500_1_0_0_1_n_n 500 rfl rfl).symm]
  refine Finset.sum_congr rfl fun k _ => ?_
  have hk := contrEquiv1_symm_val dot_S1000x500_S500x500_S1000x500_1_0_0_1_n_n 500 rfl rfl k
  have el : dot_S1000x500_S500x500_S1000x500_1_0_0_1_n_n.lhsIdx (ix2 p n) ((contrEquiv1 dot_S1000x500_S500x500_S1000x500_1_0_0_1_n_n 500 rfl rfl).symm k) = ix2 p k := funext fun a => Fin.ext (by
    match a with
    | ⟨0, _⟩ => exact lhsB_0 _ _
    | ⟨1, _⟩ => exact (lhsB_1 _ _).trans hk)
  have er : dot_S1000x500_S500x500_S1000x500_1_0_0_1_n_n.rhsIdx (ix2 p n) ((contrEquiv1 dot_S1000x500_S500x500_S1000x500_1_0_0_1_n_n 500 rfl rfl).symm k) = ix2 k n := funext fun a => Fin.ext (by
    match a with
    | ⟨0, _⟩ => exact (rhsB_0 _ _).trans hk
    | ⟨1, _⟩ => exact rhsB_1 _ _)
  rw [el, er]

/-! ### The last hidden block times the read-out column: [1000, 500] · [500, 1] -/

theorem lhsC_0 (i : S1000x1.Idx) (q : dot_S1000x500_S500x1_S1000x1_1_0_0_1_n_n.contr.Idx) :
    (dot_S1000x500_S500x1_S1000x1_1_0_0_1_n_n.lhsIdx i q 0).val = (i 0).val := by
  unfold DotDims.lhsIdx
  rw [dif_neg (show ¬(0 : Fin S1000x500.rank) ∈ dot_S1000x500_S500x1_S1000x1_1_0_0_1_n_n.lhsBatch by decide), dif_pos (show (0 : Fin S1000x500.rank) ∈ dot_S1000x500_S500x1_S1000x1_1_0_0_1_n_n.lhsNonContracting by decide)]
  rfl
theorem lhsC_1 (i : S1000x1.Idx) (q : dot_S1000x500_S500x1_S1000x1_1_0_0_1_n_n.contr.Idx) :
    (dot_S1000x500_S500x1_S1000x1_1_0_0_1_n_n.lhsIdx i q 1).val = (q ⟨0, by decide⟩).val :=
  dot_S1000x500_S500x1_S1000x1_1_0_0_1_n_n.lhsIdx_val_of_single rfl i q
theorem rhsC_0 (i : S1000x1.Idx) (q : dot_S1000x500_S500x1_S1000x1_1_0_0_1_n_n.contr.Idx) :
    (dot_S1000x500_S500x1_S1000x1_1_0_0_1_n_n.rhsIdx i q 0).val = (q ⟨0, by decide⟩).val :=
  dot_S1000x500_S500x1_S1000x1_1_0_0_1_n_n.rhsIdx_val_of_single rfl i q
theorem rhsC_1 (i : S1000x1.Idx) (q : dot_S1000x500_S500x1_S1000x1_1_0_0_1_n_n.contr.Idx) :
    (dot_S1000x500_S500x1_S1000x1_1_0_0_1_n_n.rhsIdx i q 1).val = (i 1).val := by
  unfold DotDims.rhsIdx
  rw [dif_neg (show ¬(1 : Fin S500x1.rank) ∈ dot_S1000x500_S500x1_S1000x1_1_0_0_1_n_n.rhsBatch by decide), dif_pos (show (1 : Fin S500x1.rank) ∈ dot_S1000x500_S500x1_S1000x1_1_0_0_1_n_n.rhsNonContracting by decide)]
  rfl

/-- Entry `(p, n)` of the product into a zero accumulator is the inner product of row `p` of the left factor with
    column `n` of the right one: the contraction index is one coordinate running over `Fin 500`. -/
theorem mmC_apply {φ₁ φ₂ : FTy} (l : FVec Ideal S1000x500 φ₁) (r : FVec Ideal S500x1 φ₂) (p : Fin 1000) (n : Fin 1) :
    matmul dot_S1000x500_S500x1_S1000x1_1_0_0_1_n_n none l r (constant S1000x1 .f32 0x00000000#32) (ix2 p n)
      = ∑ k : Fin 500, l (ix2 p k) * r (ix2 k n) := by
  simp only [matmul]
  rw [Ideal.matmul_constant_zero_apply, ← Equiv.sum_comp (contrEquiv1 dot_S1000x500_S500x1_S1000x1_1_0_0_1_n_n 500 rfl rfl).symm]
  refine Finset.sum_congr rfl fun k _ => ?_
  have hk := contrEquiv1_symm_val dot_S1000x500_S500x1_S1000x1_1_0_0_1_n_n 500 rfl rfl k
  have el : dot_S1000x500_S500x1_S1000x1_1_0_0_1_n_n.lhsIdx (ix2 p n) ((contrEquiv1 dot_S1000x500_S500x1_S1000x1_1_0_0_1_n_n 500 rfl rfl).symm k) = ix2 p k := funext fun a => Fin.ext (by
    match a with
    | ⟨0, _⟩ => exact lhsC_0 _ _
    | ⟨1, _⟩ => exact (lhsC_1 _ _).trans hk)
  have er : dot_S1000x500_S500x1_S1000x1_1_0_0_1_n_n.rhsIdx (ix2 p n) ((contrEquiv1 dot_S1000x500_S500x1_S1000x1_1_0_0_1_n_n 500 rfl rfl).symm k) = ix2 k n := funext fun a => Fin.ext (by
    match a with
    | ⟨0, _⟩ => exact (rhsC_0 _ _).trans hk
    | ⟨1, _⟩ => exact rhsC_1 _ _)
  rw [el, er]

/-! ## The body's layers as vector terms -/

/-- The word the rectifier compares with is the real number zero. -/
theorem zero_word : (Scalar.ofBits (F := Ideal) .f32 0x00000000#32 : Ideal .f32) = (0 : EReal) := Ideal.ofBits_zero_f32

/-- First hidden block: the feature block rectified, times the first weight matrix, plus the bias row, rectified. -/
def layer1V (x : FVec Ideal S1000x128 .f32) (w : FVec Ideal S128x500 .bf16) (b : FVec Ideal S500 .f32) : FVec Ideal S1000x500 .f32 :=
  maximumf (addf (matmul dot_S1000x128_S128x500_S1000x500_1_0_0_1_n_n none
      (truncf .bf16 (maximumf (shapeCast S1000x128 x shapeCasts_S1000x128_S1000x128) (broadcast S1000x128 (Scalar.ofBits .f32 0x00000000#32))) bitsLt_bf16_f32)
      (shapeCast S128x500 w shapeCasts_S128x500_S128x500) (constant S1000x500 .f32 0x00000000#32))
    (broadcastTo S1000x500 (shapeCast S1x500 b shapeCasts_S500_S1x500) broadcasts_S1x500_S1000x500))
    (broadcast S1000x500 (Scalar.ofBits .f32 0x00000000#32))

/-- A later hidden block: the previous one times a square weight matrix, plus the bias row, rectified. -/
def layerV (h : FVec Ideal S1000x500 .f32) (w : FVec Ideal S500x500 .bf16) (b : FVec Ideal S500 .f32) : FVec Ideal S1000x500 .f32 :=
  maximumf (addf (matmul dot_S1000x500_S500x500_S1000x500_1_0_0_1_n_n none
      (truncf .bf16 h bitsLt_bf16_f32) (shapeCast S500x500 w shapeCasts_S500x500_S500x500) (constant S1000x500 .f32 0x00000000#32))
    (broadcastTo S1000x500 (shapeCast S1x500 b shapeCasts_S500_S1x500) broadcasts_S1x500_S1000x500))
    (broadcast S1000x500 (Scalar.ofBits .f32 0x00000000#32))

/-- The read-out product: the last hidden block times the 500 × 1 column. -/
def outV (h : FVec Ideal S1000x500 .f32) (w : FVec Ideal S500x1 .bf16) : FVec Ideal S1000x1 .f32 :=
  matmul dot_S1000x500_S500x1_S1000x1_1_0_0_1_n_n none (truncf .bf16 h bitsLt_bf16_f32) (shapeCast S500x1 w shapeCasts_S500x1_S500x1) (constant S1000x1 .f32 0x00000000#32)

/-- The body's long payload is the composition of these layers. -/
theorem pay2_eq (P0 : Vec Ideal S1000x128 .f32) (P1 : Vec Ideal S128x500 .bf16) (P2 : Vec Ideal S500 .f32) (P3 : Vec Ideal S500x500 .bf16)
    (P4 : Vec Ideal S500 .f32) (P5 : Vec Ideal S500x500 .bf16) (P6 : Vec Ideal S500 .f32) (P7 : Vec Ideal S500x1 .bf16) :
    k0_pay2 (F := Ideal) P0 P1 P2 P3 P4 P5 P6 P7 = outV (layerV (layerV (layer1V P0 P1 P2) P3 P4) P5 P6) P7 := rfl

/-! ## Each layer acts row by row -/

/-- Unit `n` of the first hidden block at row `p` is `Mlp.hidden1` of row `p` of the feature block. -/
theorem layer1V_apply (x : FVec Ideal S1000x128 .f32) (w : FVec Ideal S128x500 .bf16) (b : FVec Ideal S500 .f32) (p : Fin 1000) (n : Fin 500) :
    layer1V x w b (ix2 p n) = Mlp.hidden1 (fun k => x (ix2 p k)) (fun k n => w (ix2 k n)) (fun n => b (ix1 n)) n := by
  unfold layer1V Mlp.hidden1 Mlp.relu Mlp.affine
  rw [maximumf_apply, addf_apply, mmA_apply, broadcastTo_1b_ab_apply, shapeCast_a_1a_apply, broadcast_apply]
  simp only [truncf_apply, maximumf_apply, shapeCast_self, broadcast_apply, zero_word]

/-- Unit `n` of a later hidden block at row `p` is `Mlp.hidden` of row `p` of the block before it. -/
theorem layerV_apply (h : FVec Ideal S1000x500 .f32) (w : FVec Ideal S500x500 .bf16) (b : FVec Ideal S500 .f32) (p : Fin 1000) (n : Fin 500) :
    layerV h w b (ix2 p n) = Mlp.hidden (fun k => h (ix2 p k)) (fun k n => w (ix2 k n)) (fun n => b (ix1 n)) n := by
  unfold layerV Mlp.hidden Mlp.relu Mlp.affine
  rw [maximumf_apply, addf_apply, mmB_apply, broadcastTo_1b_ab_apply, shapeCast_a_1a_apply, broadcast_apply]
  simp only [truncf_apply, shapeCast_self, zero_word]

/-- The read-out product at row `p` is the inner product of that row with the column. -/
theorem outV_apply (h : FVec Ideal S1000x500 .f32) (w : FVec Ideal S500x1 .bf16) (p : Fin 1000) (z : Fin 1) :
    outV h w (ix2 p z) = ∑ k : Fin 500, h (ix2 p k) * w (ix2 k z) := by
  unfold outV
  rw [mmC_apply]
  simp only [truncf_apply, shapeCast_self]

/-! ## The payload at a row -/

/-- Row `p` of the body's long payload: the read-out column's inner product with the third hidden layer of the
    perceptron applied to row `p` of the loaded feature block. -/
theorem pay2_row (P0 : Vec Ideal S1000x128 .f32) (P1 : Vec Ideal S128x500 .bf16) (P2 : Vec Ideal S500 .f32) (P3 : Vec Ideal S500x500 .bf16)
    (P4 : Vec Ideal S500 .f32) (P5 : Vec Ideal S500x500 .bf16) (P6 : Vec Ideal S500 .f32) (P7 : Vec Ideal S500x1 .bf16) (p : Fin 1000) (z : Fin 1) :
    k0_pay2 (F := Ideal) P0 P1 P2 P3 P4 P5 P6 P7 (ix2 p z)
      = ∑ k : Fin 500, Mlp.hidden (Mlp.hidden (Mlp.hidden1 (fun k => P0 (ix2 p k)) (fun k n => P1 (ix2 k n)) (fun n => P2 (ix1 n)))
          (fun k n => P3 (ix2 k n)) (fun n => P4 (ix1 n))) (fun k n => P5 (ix2 k n)) (fun n => P6 (ix1 n)) k * P7 (ix2 k z) := by
  rw [pay2_eq, outV_apply]
  have e1 : (fun n => layer1V P0 P1 P2 (ix2 p n)) = _ := funext (layer1V_apply P0 P1 P2 p)
  have e2 : (fun n => layerV (layer1V P0 P1 P2) P3 P4 (ix2 p n)) = _ := funext (layerV_apply (layer1V P0 P1 P2) P3 P4 p)
  have e3 : (fun n => layerV (layerV (layer1V P0 P1 P2) P3 P4) P5 P6 (ix2 p n)) = _ := funext (layerV_apply (layerV (layer1V P0 P1 P2) P3 P4) P5 P6 p)
  rw [e1] at e2
  rw [e2] at e3
  exact Finset.sum_congr rfl fun k _ => congrArg (· * P7 (ix2 k z)) (congrFun e3 k)

end Cert.KernelIdeal.Row

end
-- ==== Proof.RefRow.lean ====
/-
  The reference at one node, read on the extended reals.

  After the graph convolution the reference rectifies the 50000 × 128 array of node features and sends it through
  three dense layers of 500 rectified units and a linear read-out, each layer a product with a weight matrix plus a
  bias row broadcast down the rows. Read at row `r`, every stage depends on row `r` of the stage before it only: a
  product's entry `(r, n)` is the inner product of row `r` with column `n`. So the result at node `r` is the
  perceptron of `Cert.Mlp` applied to row `r` of the convolution's output.
-/
import proofs.«159771_j85298050499264_1_alg».proof.Proof.RefRead
import proofs.«159771_j85298050499264_1_alg».proof.Proof.MlpSpec
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.ReadP Idealize.ShloMosaic Idealize.ShloMosaic.TcCoe Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
  (x4 : (⟨S128x500, .f32⟩ : BufTy).Contents (Elt Ideal)) (x5 : (⟨S500, .f32⟩ : BufTy).Contents (Elt Ideal)) (x6 : (⟨S500x500, .f32⟩ : BufTy).Contents (Elt Ideal)) (x7 : (⟨S500, .f32⟩ : BufTy).Contents (Elt Ideal))
  (x8 : (⟨S500x500, .f32⟩ : BufTy).Contents (Elt Ideal)) (x9 : (⟨S500, .f32⟩ : BufTy).Contents (Elt Ideal)) (x10 : (⟨S500x1, .f32⟩ : BufTy).Contents (Elt Ideal)) (x11 : (⟨S1, .f32⟩ : BufTy).Contents (Elt Ideal))

/-! ## Where each product and each broadcast bias reads its operands, at a row -/

theorem lidx51 (r : Fin 50000) (n : Fin 500) (k : Fin 128) : lidx_main_v51 (ix2 r n) k = ix2 r k :=
  funext fun a => Fin.ext (by match a with | ⟨0, _⟩ => rfl | ⟨1, _⟩ => rfl)
theorem ridx51 (r : Fin 50000) (n : Fin 500) (k : Fin 128) : ridx_main_v51 (ix2 r n) k = ix2 k n :=
  funext fun a => Fin.ext (by match a with | ⟨0, _⟩ => rfl | ⟨1, _⟩ => rfl)
theorem bidx53 (r : Fin 50000) (n : Fin 500) : idx_main_v52 (idx_main_v53 (ix2 r n)) = ix1 n :=
  funext fun a => Fin.ext (by match a with | ⟨0, _⟩ => rfl)

theorem lidx56 (r : Fin 50000) (n : Fin 500) (k : Fin 500) : lidx_main_v56 (ix2 r n) k = ix2 r k :=
  funext fun a => Fin.ext (by match a with | ⟨0, _⟩ => rfl | ⟨1, _⟩ => rfl)
theorem ridx56 (r : Fin 50000) (n : Fin 500) (k : Fin 500) : ridx_main_v56 (ix2 r n) k = ix2 k n :=
  funext fun a => Fin.ext (by match a with | ⟨0, _⟩ => rfl | ⟨1, _⟩ => rfl)
theorem bidx58 (r : Fin 50000) (n : Fin 500) : idx_main_v57 (idx_main_v58 (ix2 r n)) = ix1 n :=
  funext fun a => Fin.ext (by match a with | ⟨0, _⟩ => rfl)

theorem lidx61 (r : Fin 50000) (n : Fin 500) (k : Fin 500) : lidx_main_v61 (ix2 r n) k = ix2 r k :=
  funext fun a => Fin.ext (by match a with | ⟨0, _⟩ => rfl | ⟨1, _⟩ => rfl)
theorem ridx61 (r : Fin 50000) (n : Fin 500) (k : Fin 500) : ridx_main_v61 (ix2 r n) k = ix2 k n :=
  funext fun a => Fin.ext (by match a with | ⟨0, _⟩ => rfl | ⟨1, _⟩ => rfl)
theorem bidx63 (r : Fin 50000) (n : Fin 500) : idx_main_v62 (idx_main_v63 (ix2 r n)) = ix1 n :=
  funext fun a => Fin.ext (by match a with | ⟨0, _⟩ => rfl)

theorem lidx66 (r : Fin 50000) (n : Fin 1) (k : Fin 500) : lidx_main_v66 (ix2 r n) k = ix2 r k :=
  funext fun a => Fin.ext (by match a with | ⟨0, _⟩ => rfl | ⟨1, _⟩ => rfl)
theorem ridx66 (r : Fin 50000) (n : Fin 1) (k : Fin 500) : ridx_main_v66 (ix2 r n) k = ix2 k n :=
  funext fun a => Fin.ext (by match a with | ⟨0, _⟩ => rfl | ⟨1, _⟩ => rfl)
theorem bidx68 (r : Fin 50000) (n : Fin 1) : idx_main_v67 (idx_main_v68 (ix2 r n)) = ix1 (0 : Fin 1) :=
  funext fun a => Fin.ext (by match a with | ⟨0, _⟩ => rfl)

/-! ## The layers at a row -/

/-- The activation after the convolution, at an index: the rectifier of the convolution's entry. -/
theorem relu_conv_apply (i : S50000x128.Idx) :
    val_main_v50 (F := Ideal) x0 x1 x2 x3 i = max (val_main_v49 (F := Ideal) x0 x1 x2 x3 i) 0 := by
  rw [val_main_v50_apply, val_main_call1_v0_apply, val_main_call1_cst_apply]
  show max _ (Ideal.ofBits .f32 0x00000000#32) = _
  rw [Ideal.ofBits_zero_f32]

/-- The first hidden layer at node `r`: the convolution's row rectified, through the 128 × 500 layer, rectified. -/
theorem hidden1_row (r : Fin 50000) (n : Fin 500) :
    val_main_v55 (F := Ideal) x0 x1 x2 x3 x4 x5 (ix2 r n)
      = Mlp.hidden1 (fun k => val_main_v49 (F := Ideal) x0 x1 x2 x3 (ix2 r k)) (fun k n => x4 (ix2 k n)) (fun n => x5 (ix1 n)) n := by
  rw [val_main_v55_apply, val_main_v54_apply, val_main_v51_apply, val_main_v53_apply, val_main_v52_apply, val_main_call2_v0_apply, val_main_call2_cst_apply, bidx53]
  unfold Mlp.hidden1 Mlp.relu Mlp.affine
  simp only [lidx51, ridx51, relu_conv_apply, Ideal.addf_def, Ideal.maximumf_def, Ideal.ofBits_def, Ideal.ofBits_zero_f32]

/-- The second hidden layer at node `r`, from the first. -/
theorem hidden2_row (r : Fin 50000) (n : Fin 500) :
    val_main_v60 (F := Ideal) x0 x1 x2 x3 x4 x5 x6 x7 (ix2 r n)
      = Mlp.hidden (fun k => val_main_v55 (F := Ideal) x0 x1 x2 x3 x4 x5 (ix2 r k)) (fun k n => x6 (ix2 k n)) (fun n => x7 (ix1 n)) n := by
  rw [val_main_v60_apply, val_main_v59_apply, val_main_v56_apply, val_main_v58_apply, val_main_v57_apply, val_main_call3_v0_apply, val_main_call3_cst_apply, bidx58]
  unfold Mlp.hidden Mlp.relu Mlp.affine
  simp only [lidx56, ridx56, Ideal.addf_def, Ideal.maximumf_def, Ideal.ofBits_def, Ideal.ofBits_zero_f32]

/-- The third hidden layer at node `r`, from the second. -/
theorem hidden3_row (r : Fin 50000) (n : Fin 500) :
    val_main_v65 (F := Ideal) x0 x1 x2 x3 x4 x5 x6 x7 x8 x9 (ix2 r n)
      = Mlp.hidden (fun k => val_main_v60 (F := Ideal) x0 x1 x2 x3 x4 x5 x6 x7 (ix2 r k)) (fun k n => x8 (ix2 k n)) (fun n => x9 (ix1 n)) n := by
  rw [val_main_v65_apply, val_main_v64_apply, val_main_v61_apply, val_main_v63_apply, val_main_v62_apply, val_main_call4_v0_apply, val_main_call4_cst_apply, bidx63]
  unfold Mlp.hidden Mlp.relu Mlp.affine
  simp only [lidx61, ridx61, Ideal.addf_def, Ideal.maximumf_def, Ideal.ofBits_def, Ideal.ofBits_zero_f32]

/-- The read-out at node `r`: the third hidden layer's row against the 500 × 1 column, plus the one bias. -/
theorem readout_row (r : Fin 50000) (z : Fin 1) :
    val_main_v69 (F := Ideal) x0 x1 x2 x3 x4 x5 x6 x7 x8 x9 x10 x11 (ix2 r z)
      = Mlp.affine (fun k => val_main_v65 (F := Ideal) x0 x1 x2 x3 x4 x5 x6 x7 x8 x9 (ix2 r k)) (fun k => x10 (ix2 k z)) (x11 (ix1 (0 : Fin 1))) := by
  rw [val_main_v69_apply, val_main_v66_apply, val_main_v68_apply, val_main_v67_apply, bidx68]
  unfold Mlp.affine
  simp only [lidx66, ridx66, Ideal.addf_def]

/-! ## The reference's result at a node -/

/-- The reference's result at node `r` is the perceptron applied to row `r` of the convolution's output. -/
theorem result_row (r : Fin 50000) (z : Fin 1) :
    val_main_v69 (F := Ideal) x0 x1 x2 x3 x4 x5 x6 x7 x8 x9 x10 x11 (ix2 r z)
      = Mlp.readout (fun k => val_main_v49 (F := Ideal) x0 x1 x2 x3 (ix2 r k)) (fun k n => x4 (ix2 k n)) (fun n => x5 (ix1 n))
          (fun k n => x6 (ix2 k n)) (fun n => x7 (ix1 n)) (fun k n => x8 (ix2 k n)) (fun n => x9 (ix1 n))
          (fun k => x10 (ix2 k z)) (x11 (ix1 (0 : Fin 1))) := by
  rw [readout_row]
  unfold Mlp.readout
  have e1 : (fun n => val_main_v55 (F := Ideal) x0 x1 x2 x3 x4 x5 (ix2 r n)) = _ := funext (hidden1_row x0 x1 x2 x3 x4 x5 r)
  have e2 : (fun n => val_main_v60 (F := Ideal) x0 x1 x2 x3 x4 x5 x6 x7 (ix2 r n)) = _ := funext (hidden2_row x0 x1 x2 x3 x4 x5 x6 x7 r)
  have e3 : (fun n => val_main_v65 (F := Ideal) x0 x1 x2 x3 x4 x5 x6 x7 x8 x9 (ix2 r n)) = _ := funext (hidden3_row x0 x1 x2 x3 x4 x5 x6 x7 x8 x9 r)
  rw [e1] at e2
  rw [e2] at e3
  rw [e3]

end Cert.ReferenceIdeal.Row

end
-- ==== Proof.KernelFinal.lean ====
/-
  The kernel's result array after the run, as one function of the argument arrays.

  The region's first window walks the 50000 × 128 array the host operations before it leave — the graph convolution's
  output — in fifty blocks of 1000 rows; the weights and biases are resident windows that hold their whole arrays at
  every point; the output window writes block `t` of the 50000 × 1 result at point `t`. The host operations before the
  region are, operation for operation, the reference's own first fifty: the array they leave is the reference's
  convolution stage of the same arguments, and the four weight arrays are the arguments themselves (the change of
  float format is the identity on the extended reals). Row `p` of block `t` is node `1000 t + p`, and by the two
  row lemmas both programs put the same perceptron of that node's convolution row there. The fifty blocks tile
  the result, so the array ends holding the reference's result stage of the kernel's own arguments.
-/
import proofs.«159771_j85298050499264_1_alg».proof.Proof.KernelValue
import proofs.«159771_j85298050499264_1_alg».proof.Proof.KernelEntry
import proofs.«159771_j85298050499264_1_alg».proof.Proof.KernelRow
import proofs.«159771_j85298050499264_1_alg».proof.Proof.RefRow
import Idealize.ShloMosaic.Lib.Pipeline.Value
import Idealize.ShloMosaic.Lib.StableHlo.Run

noncomputable section

namespace Cert.KernelIdeal.Final

open Cert.KernelIdeal Cert.KernelIdeal.Gen Cert.KernelIdeal.ValueP Cert.KernelIdeal.Entry Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The windows' index maps, decided over the fifty grid points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 1) = 0 :=
  (by decide +kernel : ∀ t : Fin grid0.N, win0_2.index t (0 : Fin 1) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 1) = 0 :=
  (by decide +kernel : ∀ t : Fin grid0.N, win0_4.index t (0 : Fin 1) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 1) = 0 :=
  (by decide +kernel : ∀ t : Fin grid0.N, win0_6.index t (0 : Fin 1) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 1) = 0 :=
  (by decide +kernel : ∀ t : Fin grid0.N, win0_8.index t (0 : Fin 1) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-! ## Reading a window's block of an array

Stated for an ARBITRARY array `X` of the window's shape, so that nothing about the array's contents is looked at. -/

/-- Row `p` of the first window's block at point `t` is row `1000 t + p` of the array. -/
theorem read0 (X : Vec Ideal S50000x128 .f32) (t : Fin cfg0.N) (p : Fin 1000) (k : Fin 128) (r : Fin 50000) (hr : r.val = t.val * 1000 + p.val) :
    ((cfg0.win 0).blk t).view.read (Elt Ideal) X (ix2 p k) = X (ix2 r k) := by
  obtain ⟨e0, e1⟩ := idx0 t
  rw [View.read_apply]
  show X _ = X (ix2 r k)
  refine congrArg X (funext fun a => Fin.ext ?_)
  match a with
  | ⟨0, _⟩ => show win0_0.index t (0 : Fin 2) * 1000 + 1 * p.val = r.val; rw [e0, hr]; omega
  | ⟨1, _⟩ => show win0_0.index t (1 : Fin 2) * 128 + 1 * k.val = k.val; rw [e1]; omega

/-! The resident windows' one block is the whole array: their index maps are constantly zero. -/

theorem read1 (X : Vec Ideal S128x500 .bf16) (t : Fin cfg0.N) (y : S128x500.Idx) :
    ((cfg0.win 1).blk t).view.read (Elt Ideal) X y = X y := by
  obtain ⟨e0, e1⟩ := idx1 t
  rw [View.read_apply]
  show X _ = X y
  refine congrArg X (funext fun a => Fin.ext ?_)
  match a with
  | ⟨0, _⟩ => show win0_1.index t (0 : Fin 2) * 128 + 1 * (y 0).val = (y 0).val; rw [e0]; omega
  | ⟨1, _⟩ => show win0_1.index t (1 : Fin 2) * 500 + 1 * (y 1).val = (y 1).val; rw [e1]; omega

theorem read2 (X : Vec Ideal S500 .f32) (t : Fin cfg0.N) (y : S500.Idx) :
    ((cfg0.win 2).blk t).view.read (Elt Ideal) X y = X y := by
  have e0 := idx2 t
  rw [View.read_apply]
  show X _ = X y
  refine congrArg X (funext fun a => Fin.ext ?_)
  match a with
  | ⟨0, _⟩ => show win0_2.index t (0 : Fin 1) * 500 + 1 * (y 0).val = (y 0).val; rw [e0]; omega

theorem read3 (X : Vec Ideal S500x500 .bf16) (t : Fin cfg0.N) (y : S500x500.Idx) :
    ((cfg0.win 3).blk t).view.read (Elt Ideal) X y = X y := by
  obtain ⟨e0, e1⟩ := idx3 t
  rw [View.read_apply]
  show X _ = X y
  refine congrArg X (funext fun a => Fin.ext ?_)
  match a with
  | ⟨0, _⟩ => show win0_3.index t (0 : Fin 2) * 500 + 1 * (y 0).val = (y 0).val; rw [e0]; omega
  | ⟨1, _⟩ => show win0_3.index t (1 : Fin 2) * 500 + 1 * (y 1).val = (y 1).val; rw [e1]; omega

theorem read4 (X : Vec Ideal S500 .f32) (t : Fin cfg0.N) (y : S500.Idx) :
    ((cfg0.win 4).blk t).view.read (Elt Ideal) X y = X y := by
  have e0 := idx4 t
  rw [View.read_apply]
  show X _ = X y
  refine congrArg X (funext fun a => Fin.ext ?_)
  match a with
  | ⟨0, _⟩ => show win0_4.index t (0 : Fin 1) * 500 + 1 * (y 0).val = (y 0).val; rw [e0]; omega

theorem read5 (X : Vec Ideal S500x500 .bf16) (t : Fin cfg0.N) (y : S500x500.Idx) :
    ((cfg0.win 5).blk t).view.read (Elt Ideal) X y = X y := by
  obtain ⟨e0, e1⟩ := idx5 t
  rw [View.read_apply]
  show X _ = X y
  refine congrArg X (funext fun a => Fin.ext ?_)
  match a with
  | ⟨0, _⟩ => show win0_5.index t (0 : Fin 2) * 500 + 1 * (y 0).val = (y 0).val; rw [e0]; omega
  | ⟨1, _⟩ => show win0_5.index t (1 : Fin 2) * 500 + 1 * (y 1).val = (y 1).val; rw [e1]; omega

theorem read6 (X : Vec Ideal S500 .f32) (t : Fin cfg0.N) (y : S500.Idx) :
    ((cfg0.win 6).blk t).view.read (Elt Ideal) X y = X y := by
  have e0 := idx6 t
  rw [View.read_apply]
  show X _ = X y
  refine congrArg X (funext fun a => Fin.ext ?_)
  match a with
  | ⟨0, _⟩ => show win0_6.index t (0 : Fin 1) * 500 + 1 * (y 0).val = (y 0).val; rw [e0]; omega

theorem read7 (X : Vec Ideal S500x1 .bf16) (t : Fin cfg0.N) (y : S500x1.Idx) :
    ((cfg0.win 7).blk t).view.read (Elt Ideal) X y = X y := by
  obtain ⟨e0, e1⟩ := idx7 t
  rw [View.read_apply]
  show X _ = X y
  refine congrArg X (funext fun a => Fin.ext ?_)
  match a with
  | ⟨0, _⟩ => show win0_7.index t (0 : Fin 2) * 500 + 1 * (y 0).val = (y 0).val; rw [e0]; omega
  | ⟨1, _⟩ => show win0_7.index t (1 : Fin 2) * 1 + 1 * (y 1).val = (y 1).val; rw [e1]; omega

theorem read8 (X : Vec Ideal S1 .f32) (t : Fin cfg0.N) (y : S1.Idx) :
    ((cfg0.win 8).blk t).view.read (Elt Ideal) X y = X y := by
  have e0 := idx8 t
  rw [View.read_apply]
  show X _ = X y
  refine congrArg X (funext fun a => Fin.ext ?_)
  match a with
  | ⟨0, _⟩ => show win0_8.index t (0 : Fin 1) * 1 + 1 * (y 0).val = (y 0).val; rw [e0]; omega

/-- Row `p` of the output window's block at point `t` is row `1000 t + p` of the result array. -/
theorem read9 (X : Vec Ideal S50000x1 .f32) (t : Fin cfg0.N) (p : Fin 1000) (r : Fin 50000) (hr : r.val = t.val * 1000 + p.val) :
    ((cfg0.win 9).blk t).view.read (Elt Ideal) X (ix2 p (0 : Fin 1)) = X (ix2 r (0 : Fin 1)) := by
  obtain ⟨e0, e1⟩ := idx9 t
  rw [View.read_apply]
  show X _ = X (ix2 r (0 : Fin 1))
  refine congrArg X (funext fun a => Fin.ext ?_)
  match a with
  | ⟨0, _⟩ => show win0_9.index t (0 : Fin 2) * 1000 + 1 * p.val = r.val; rw [e0, hr]; omega
  | ⟨1, _⟩ => show win0_9.index t (1 : Fin 2) * 1 + 1 * 0 = 0; rw [e1]

/-! ## Each input window's block at a point, of the arrays the region finds -/

/-- Row `p` of the feature block at point `t` is row `1000 t + p` of the array the region finds. -/
theorem iblk0_apply (c : Dev nD) (t : Fin cfg0.N) (p : Fin 1000) (k : Fin 128) (r : Fin 50000) (hr : r.val = t.val * 1000 + p.val) :
    (iblk m c 0 t : Vec Ideal S1000x128 .f32) (ix2 p k) = (V m c main_v49 : Vec Ideal S50000x128 .f32) (ix2 r k) := by
  unfold iblk
  show ((cfg0.win 0).blk t).view.read (Elt Ideal) (V m c main_v49) (ix2 p k) = V m c main_v49 (ix2 r k)
  generalize V m c main_v49 = X
  exact read0 X t p k r hr

theorem iblk1_eq (c : Dev nD) (t : Fin cfg0.N) : (iblk m c 1 t : Vec Ideal S128x500 .bf16) = (V m c main_v50 : Vec Ideal S128x500 .bf16) := by
  unfold iblk
  show ((cfg0.win 1).blk t).view.read (Elt Ideal) (V m c main_v50) = V m c main_v50
  generalize V m c main_v50 = X
  exact funext fun y => read1 X t y

theorem iblk2_eq (c : Dev nD) (t : Fin cfg0.N) : (iblk m c 2 t : Vec Ideal S500 .f32) = (V m c main_arg5 : Vec Ideal S500 .f32) := by
  unfold iblk
  show ((cfg0.win 2).blk t).view.read (Elt Ideal) (V m c main_arg5) = V m c main_arg5
  generalize V m c main_arg5 = X
  exact funext fun y => read2 X t y

theorem iblk3_eq (c : Dev nD) (t : Fin cfg0.N) : (iblk m c 3 t : Vec Ideal S500x500 .bf16) = (V m c main_v51 : Vec Ideal S500x500 .bf16) := by
  unfold iblk
  show ((cfg0.win 3).blk t).view.read (Elt Ideal) (V m c main_v51) = V m c main_v51
  generalize V m c main_v51 = X
  exact funext fun y => read3 X t y

theorem iblk4_eq (c : Dev nD) (t : Fin cfg0.N) : (iblk m c 4 t : Vec Ideal S500 .f32) = (V m c main_arg7 : Vec Ideal S500 .f32) := by
  unfold iblk
  show ((cfg0.win 4).blk t).view.read (Elt Ideal) (V m c main_arg7) = V m c main_arg7
  generalize V m c main_arg7 = X
  exact funext fun y => read4 X t y

theorem iblk5_eq (c : Dev nD) (t : Fin cfg0.N) : (iblk m c 5 t : Vec Ideal S500x500 .bf16) = (V m c main_v52 : Vec Ideal S500x500 .bf16) := by
  unfold iblk
  show ((cfg0.win 5).blk t).view.read (Elt Ideal) (V m c main_v52) = V m c main_v52
  generalize V m c main_v52 = X
  exact funext fun y => read5 X t y

theorem iblk6_eq (c : Dev nD) (t : Fin cfg0.N) : (iblk m c 6 t : Vec Ideal S500 .f32) = (V m c main_arg9 : Vec Ideal S500 .f32) := by
  unfold iblk
  show ((cfg0.win 6).blk t).view.read (Elt Ideal) (V m c main_arg9) = V m c main_arg9
  generalize V m c main_arg9 = X
  exact funext fun y => read6 X t y

theorem iblk7_eq (c : Dev nD) (t : Fin cfg0.N) : (iblk m c 7 t : Vec Ideal S500x1 .bf16) = (V m c main_v53 : Vec Ideal S500x1 .bf16) := by
  unfold iblk
  show ((cfg0.win 7).blk t).view.read (Elt Ideal) (V m c main_v53) = V m c main_v53
  generalize V m c main_v53 = X
  exact funext fun y => read7 X t y

theorem iblk8_eq (c : Dev nD) (t : Fin cfg0.N) : (iblk m c 8 t : Vec Ideal S1 .f32) = (V m c main_arg11 : Vec Ideal S1 .f32) := by
  unfold iblk
  show ((cfg0.win 8).blk t).view.read (Elt Ideal) (V m c main_arg11) = V m c main_arg11
  generalize V m c main_arg11 = X
  exact funext fun y => read8 X t y

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- The block the body leaves, at row `p`: the perceptron of row `p` of the loaded feature block under the loaded
    weights and biases (the long payload's row, plus the read-out bias). -/
theorem block_row (P0 : Vec Ideal S1000x128 .f32) (P1 : Vec Ideal S128x500 .bf16) (P2 : Vec Ideal S500 .f32) (P3 : Vec Ideal S500x500 .bf16)
    (P4 : Vec Ideal S500 .f32) (P5 : Vec Ideal S500x500 .bf16) (P6 : Vec Ideal S500 .f32) (P7 : Vec Ideal S500x1 .bf16) (P8 : Vec Ideal S1 .f32) (p : Fin 1000) :
    E9 (F := Ideal) P0 P1 P2 P3 P4 P5 P6 P7 P8 (ix2 p (0 : Fin 1))
      = Mlp.readout (fun k => P0 (ix2 p k)) (fun k n => P1 (ix2 k n)) (fun n => P2 (ix1 n)) (fun k n => P3 (ix2 k n)) (fun n => P4 (ix1 n))
          (fun k n => P5 (ix2 k n)) (fun n => P6 (ix1 n)) (fun k => P7 (ix2 k (0 : Fin 1))) (P8 (ix1 (0 : Fin 1))) := by
  have h0 : ix9_0 (ix2 p (0 : Fin 1)) = ix2 p (0 : Fin 1) := funext fun a => Fin.ext (by match a with | ⟨0, _⟩ => rfl | ⟨1, _⟩ => rfl)
  have h1 : ix9_1 (ix2 p (0 : Fin 1)) = ix1 (0 : Fin 1) := funext fun a => Fin.ext (by match a with | ⟨0, _⟩ => rfl)
  show (k0_pay2 (F := Ideal) P0 P1 P2 P3 P4 P5 P6 P7 (ix9_0 (ix2 p (0 : Fin 1)))) + P8 (ix9_1 (ix2 p (0 : Fin 1))) = _
  rw [h0, h1, Row.pay2_row]
  rfl

/-- What the body's stores leave, at row `p` of the point's block, for ARBITRARY input blocks: the perceptron of row
    `p` of the feature block under the loaded weights and biases. -/
theorem out_row (t : Fin cfg0.N) (B0 : Vec Ideal S1000x128 .f32) (B1 : Vec Ideal S128x500 .bf16) (B2 : Vec Ideal S500 .f32) (B3 : Vec Ideal S500x500 .bf16)
    (B4 : Vec Ideal S500 .f32) (B5 : Vec Ideal S500x500 .bf16) (B6 : Vec Ideal S500 .f32) (B7 : Vec Ideal S500x1 .bf16) (B8 : Vec Ideal S1 .f32) (p : Fin 1000) :
    (cfg0.win 9).cut (grid0.coords t) (out0_9 B0 B1 B2 B3 B4 B5 B6 B7 B8) (ix2 p (0 : Fin 1))
      = Mlp.readout (fun k => B0 (ix2 p k)) (fun k n => B1 (ix2 k n)) (fun n => B2 (ix1 n)) (fun k n => B3 (ix2 k n)) (fun n => B4 (ix1 n))
          (fun k n => B5 (ix2 k n)) (fun n => B6 (ix1 n)) (fun k => B7 (ix2 k (0 : Fin 1))) (B8 (ix1 (0 : Fin 1))) := by
  show out0_9 B0 B1 B2 B3 B4 B5 B6 B7 B8 (ix2 p (0 : Fin 1)) = _
  unfold out0_9
  rw [View.ld_unit_zero (S := S1000x128) hz2 _ B0, View.ld_unit_zero (S := S128x500) hz2 _ B1, View.ld_unit_zero (S := S500) hz1 _ B2,
    View.ld_unit_zero (S := S500x500) hz2 _ B3, View.ld_unit_zero (S := S500) hz1 _ B4, View.ld_unit_zero (S := S500x500) hz2 _ B5,
    View.ld_unit_zero (S := S500) hz1 _ B6, View.ld_unit_zero (S := S500x1) hz2 _ B7, View.ld_unit_zero (S := S1) hz1 _ B8]
  rw [canon9_eq, block_row]

/-- The kernel's result: the reference's result stage, read at the kernel's own arguments. -/
abbrev result (c : Dev nD) : Buf (Elt Ideal) ((c : Thread nD τ).loc main_v54) :=
  Cert.ReferenceIdeal.ReadP.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- WHAT POINT `t` WRITES BACK is block `t` of `result`: row `p` of the block is node `1000 t + p`, where both sides
    are the perceptron of that node's row of the convolution. -/
theorem flushed_eq (c : Dev nD) (t : Fin cfg0.N) :
    (dats m 0 c).flushed 9 t = ((cfg0.win 9).blk t).view.read (Elt Ideal) (result m c) := by
  rw [flushed9]
  refine funext fun (j : S1000x1.Idx) => ?_
  obtain ⟨p, z, rfl⟩ : ∃ (p : Fin 1000) (z : Fin 1), j = ix2 p z := ⟨j 0, j 1, eq_ix2 j⟩
  obtain rfl : z = 0 := Subsingleton.elim _ _
  have hN : cfg0.N = 50 := N_0
  have hr : t.val * 1000 + p.val < 50000 := by have := t.isLt; omega
  rw [read9 (result m c) t p ⟨t.val * 1000 + p.val, hr⟩ rfl, out_row]
  unfold result
  rw [Cert.ReferenceIdeal.Row.result_row]
  have hx : (fun k : Fin 128 => (iblk m c 0 t : Vec Ideal S1000x128 .f32) (ix2 p k))
      = fun k => Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (ix2 (⟨t.val * 1000 + p.val, hr⟩ : Fin 50000) k) :=
    funext fun k => by rw [iblk0_apply m c t p k ⟨t.val * 1000 + p.val, hr⟩ rfl, V_conv]
  rw [hx, iblk1_eq, iblk2_eq, iblk3_eq, iblk4_eq, iblk5_eq, iblk6_eq, iblk7_eq, iblk8_eq,
    V_w1, V_w2, V_w3, V_wo, V_main_arg5, V_main_arg7, V_main_arg9, V_main_arg11]
  rfl

/-! ## The fifty blocks tile the result -/

/-- An index of the result is in point `t`'s block iff each coordinate is in the block's range on its axis. -/
theorem mem_blk (t : Fin cfg0.N) (i : S50000x1.Idx) :
    i ∈ ((cfg0.win 9).blk t).view.set ↔ ∀ a : Fin 2, win0_9.index t a * S1000x1.size a ≤ (i a).val ∧ (i a).val < win0_9.index t a * S1000x1.size a + S1000x1.size a := by
  show i ∈ ((View.whole main_v54).slice (win0_9.rect t)).set ↔ _
  rw [View.set_slice_whole, Rect.mem_set_unit]
  exact Iff.rfl

/-- Node `r` lies in the block of point `r / 1000`. -/
theorem cover (i : S50000x1.Idx) : ∃ t : Fin cfg0.N, (cfg0.win 9).flush t = true ∧ i ∈ ((cfg0.win 9).blk t).view.set := by
  have hi0 : (i 0).val < 50000 := (i 0).isLt
  have hi1 : (i 1).val < 1 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨e0, e1⟩ := idx9 t
  refine ⟨t, flush0_9 t, ?_⟩
  rw [mem_blk]
  intro a
  match a with
  | ⟨0, _⟩ => show win0_9.index t (0 : Fin 2) * 1000 ≤ (i 0).val ∧ (i 0).val < win0_9.index t (0 : Fin 2) * 1000 + 1000; rw [e0]; omega
  | ⟨1, _⟩ => show win0_9.index t (1 : Fin 2) * 1 ≤ (i 1).val ∧ (i 1).val < win0_9.index t (1 : Fin 2) * 1 + 1; rw [e1]; omega

/-- THE ARRAY after the run is `result`. -/
theorem final (c : Dev nD) : (dats m 0 c).arrAt 9 cfg0.N = result m c :=
  (dats m 0 c).arrAt_eq_of_cover 9 (result m c) (fun t _ => flushed_eq m c t) cover

/-! ## The run, read -/

/-- Every weakly fair execution of the kernel's program ends with the result array at `result` and the arguments unchanged. -/
theorem run : θ_run defs (onTc (τ := τ) (main (F := Ideal))) ⟨m, fun _ => 0, ρ⟩ fun r => ∀ c : Dev nD,
      r.2.mem ((c : Thread nD τ).loc main_v54) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.Final

end
-- ==== Proof.lean ====
/-
  A graph convolution followed by a perceptron, certified against its reference on the extended reals.

  Both programs first compute the same normalised graph convolution of the node features with host operations
  (a 128 × 128 product, degrees by a scatter-add over the edges with self-loops, inverse square roots, a gather, a
  scaling and a second scatter-add, plus a bias): the same operations in the same order on the same arguments. The
  kernel then runs the rectifier and a perceptron with three hidden layers of 500 rectified units and one linear
  read-out unit over blocks of 1000 nodes, its weights converted to a narrow float format; the reference runs the same
  layers over all 50000 nodes at once with the weights as given. On the extended reals a change of float format is
  the identity, a product into a zero accumulator is the plain sum of products, and every layer acts on each node's
  row by itself, so both programs put at node `r` the perceptron of row `r` of the convolution's output
  (`Cert.Mlp.readout`; the kernel's side is `Cert.KernelIdeal.Row.pay2_row` and `Cert.KernelIdeal.Final.block_row`, the
  reference's `Cert.ReferenceIdeal.Row.result_row`). The kernel's fifty blocks tile the result array
  (`Cert.KernelIdeal.Final.final`). No sum is reordered and no factor is moved across a sum, so the inputs' finiteness
  is never used. The idealization rewrote nothing, so `preserves` has nothing to state.
-/
import proofs.«159771_j85298050499264_1_alg».proof.Defs
import proofs.«159771_j85298050499264_1_alg».proof.Proof.Gen.Kernel
import proofs.«159771_j85298050499264_1_alg».proof.Proof.Gen.Kernel.Skeleton
import proofs.«159771_j85298050499264_1_alg».proof.Proof.Gen.Kernel.Launch
import proofs.«159771_j85298050499264_1_alg».proof.Proof.Gen.Kernel.Points
import proofs.«159771_j85298050499264_1_alg».proof.Proof.Gen.Kernel.Frame
import proofs.«159771_j85298050499264_1_alg».proof.Proof.Gen.KernelIdeal
import proofs.«159771_j85298050499264_1_alg».proof.Proof.Gen.KernelIdeal.Skeleton
import proofs.«159771_j85298050499264_1_alg».proof.Proof.Gen.KernelIdeal.Launch
import proofs.«159771_j85298050499264_1_alg».proof.Proof.Gen.KernelIdeal.Points
import proofs.«159771_j85298050499264_1_alg».proof.Proof.Gen.KernelIdeal.Frame
import proofs.«159771_j85298050499264_1_alg».proof.Proof.Gen.ReferenceIdeal
import proofs.«159771_j85298050499264_1_alg».proof.Proof.Gen.Pre_finite_inputs
import proofs.«159771_j85298050499264_1_alg».proof.Proof.KernelValue
import proofs.«159771_j85298050499264_1_alg».proof.Proof.RefRun
import proofs.«159771_j85298050499264_1_alg».proof.Proof.RefRead
import proofs.«159771_j85298050499264_1_alg».proof.Proof.KernelFinal
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the reference's result stage of the arguments: the kernel's by
    `Cert.KernelIdeal.Final.run`, the reference's by its own run, the two memories agreeing on the arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v69_eq]
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
